-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x240x240 : Shape := ⟨3, ![512, 240, 240]⟩
abbrev S240x240 : Shape := ⟨2, ![240, 240]⟩
abbrev S_ : Shape := ⟨0, ![]⟩

class Facts : Prop where
  bcast_S_S512x240x240 : S_.BroadcastsInDim S512x240x240 (![] : Fin 0 → Fin S512x240x240.rank)
  reducesTo_S512x240x240_S_d0_1_2 : S512x240x240.ReducesTo [0, 1, 2] S_
  h_S_ : 0 < S_.numel
  bcast_S_S240x240 : S_.BroadcastsInDim S240x240 (![] : Fin 0 → Fin S240x240.rank)
  reducesTo_S240x240_S_d0_1 : S240x240.ReducesTo [0, 1] S_

variable [Facts]

def fn {F : FTy → Type} [FloatOps F] (main_arg0 : FVec F S512x240x240 .f32) (main_arg1 : FVec F S240x240 .f32) : IVec S_ 1 :=
  let main_v0 : FVec F S512x240x240 .f32 := Host.absf main_arg0
  let main_cst : FVec F S_ .f32 := constant S_ .f32 0x7F800000#32
  let main_v1 : FVec F S512x240x240 .f32 := broadcastInDim S512x240x240 ![] bcast_S_S512x240x240 main_cst
  let main_v2 : IVec S512x240x240 1 := cmpf .olt main_v0 main_v1
  let main_c : IVec S_ 1 := constantI S_ 1 1#1
  let main_v3 : IVec S_ 1 := (fun x v => Host.reduce IntOp.andi x v reducesTo_S512x240x240_S_d0_1_2 h_S_) main_v2 main_c
  let main_v4 : FVec F S240x240 .f32 := Host.absf main_arg1
  let main_cst_0 : FVec F S_ .f32 := constant S_ .f32 0x7F800000#32
  let main_v5 : FVec F S240x240 .f32 := broadcastInDim S240x240 ![] bcast_S_S240x240 main_cst_0
  let main_v6 : IVec S240x240 1 := cmpf .olt main_v4 main_v5
  let main_c_1 : IVec S_ 1 := constantI S_ 1 1#1
  let main_v7 : IVec S_ 1 := (fun x v => Host.reduce IntOp.andi x v reducesTo_S240x240_S_d0_1 h_S_) main_v6 main_c_1
  let main_v8 : IVec S_ 1 := andi main_v3 main_v7
  main_v8
-- ==== Kernel.lean ====
abbrev S512x240x240 : Shape := ⟨3, ![512, 240, 240]⟩
abbrev S240x240 : Shape := ⟨2, ![240, 240]⟩
abbrev S240x12 : Shape := ⟨2, ![240, 12]⟩
abbrev S12x240 : Shape := ⟨2, ![12, 240]⟩
abbrev S12x12 : Shape := ⟨2, ![12, 12]⟩
abbrev S32x240x240 : Shape := ⟨3, ![32, 240, 240]⟩
abbrev S_ : Shape := ⟨0, ![]⟩
abbrev S12x20x12x20 : Shape := ⟨4, ![12, 20, 12, 20]⟩

abbrev nBuf : Space → Nat
  | .hbm => 41
  | .vmem => 6
  | .smem => 0
  | _ => 0

abbrev bufTy : (tb : Table) → Fin (tcTables nBuf tb) → BufTy
  | .hbm, ⟨0, _⟩ => ⟨S512x240x240, .f32⟩
  | .hbm, ⟨1, _⟩ => ⟨S240x240, .f32⟩
  | .hbm, ⟨2, _⟩ => ⟨S240x12, .f32⟩
  | .hbm, ⟨3, _⟩ => ⟨S12x240, .f32⟩
  | .hbm, ⟨4, _⟩ => ⟨S12x12, .f32⟩
  | .hbm, ⟨5, _⟩ => ⟨S12x12, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S12x12, .f32⟩
  | .hbm, ⟨12, _⟩ => ⟨S12x12, .f32⟩
  | .hbm, ⟨13, _⟩ => ⟨S_, .f32⟩
  | .hbm, ⟨14, _⟩ => ⟨S12x12, .f32⟩
  | .hbm, ⟨15, _⟩ => ⟨S12x12, .f32⟩
  | .hbm, ⟨16, _⟩ => ⟨S_, .f32⟩
  | .hbm, ⟨17, _⟩ => ⟨S_, .f32⟩
  | .hbm, ⟨18, _⟩ => ⟨S12x12, .f32⟩
  | .hbm, ⟨19, _⟩ => ⟨S12x12, .f32⟩
  | .hbm, ⟨20, _⟩ => ⟨S12x12, .f32⟩
  | .hbm, ⟨21, _⟩ => ⟨S_, .f32⟩
  | .hbm, ⟨22, _⟩ => ⟨S12x12, .f32⟩
  | .hbm, ⟨23, _⟩ => ⟨S12x12, .f32⟩
  | .hbm, ⟨24, _⟩ => ⟨S12x20x12x20, .f32⟩
  | .hbm, ⟨25, _⟩ => ⟨S12x20x12x20, .f32⟩
  | .hbm, ⟨26, _⟩ => ⟨S12x20x12x20, .f32⟩
  | .hbm, ⟨27, _⟩ => ⟨S12x20x12x20, .f32⟩
  | .hbm, ⟨28, _⟩ => ⟨S_, .f32⟩
  | .hbm, ⟨29, _⟩ => ⟨S12x12, .f32⟩
  | .hbm, ⟨30, _⟩ => ⟨S_, .f32⟩
  | .hbm, ⟨31, _⟩ => ⟨S12x12, .f32⟩
  | .hbm, ⟨32, _⟩ => ⟨S12x12, .f32⟩
  | .hbm, ⟨33, _⟩ => ⟨S12x12, .f32⟩
  | .hbm, ⟨34, _⟩ => ⟨S12x12, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S32x240x240, .f32⟩
  | .local _ .vmem, ⟨1, _⟩ => ⟨S32x240x240, .f32⟩
  | .local _ .vmem, ⟨2, _⟩ => ⟨S240x12, .f32⟩
  | .local _ .vmem, ⟨3, _⟩ => ⟨S12x240, .f32⟩
  | .local _ .vmem, ⟨4, _⟩ => ⟨S12x12, .f32⟩
  | .local _ .vmem, ⟨5, _⟩ => ⟨S12x12, .f32⟩
  | _, _ => ⟨S512x240x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0_0 : Ref sig .tc := ⟨.hbm, 4, rfl⟩
abbrev main_v0_1 : Ref sig .tc := ⟨.hbm, 5, rfl⟩
abbrev main_cst_1 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_cst_3 : Ref sig .tc := ⟨.hbm, 10, rfl⟩
abbrev main_v3 : Ref sig .tc := ⟨.hbm, 11, rfl⟩
abbrev main_v4 : Ref sig .tc := ⟨.hbm, 12, rfl⟩
abbrev main_cst_4 : Ref sig .tc := ⟨.hbm, 13, rfl⟩
abbrev main_v5 : Ref sig .tc := ⟨.hbm, 14, rfl⟩
abbrev main_v6 : Ref sig .tc := ⟨.hbm, 15, rfl⟩
abbrev main_cst_5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_cst_10 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x240x240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S240x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S12x12_S12x12_0_0 : ∀ a, (![0, 0] : Fin 2 → Nat) a + S12x12.size a ≤ S12x12.size a
  h_S12x12 : 0 < S12x12.numel
  inb_S32x240x240_S32x240x240_0_0_0 : ∀ a, (![0, 0, 0] : Fin 3 → Nat) a + S32x240x240.size a ≤ S32x240x240.size a
  h_S32x240x240 : 0 < S32x240x240.numel
  reduces_S32x240x240_S240x240 : S32x240x240.Reduces [0] S240x240
  inb_S240x12_S240x12_0_0 : ∀ a, (![0, 0] : Fin 2 → Nat) a + S240x12.size a ≤ S240x12.size a
  h_S240x12 : 0 < S240x12.numel
  inb_S12x240_S12x240_0_0 : ∀ a, (![0, 0] : Fin 2 → Nat) a + S12x240.size a ≤ S12x240.size a
  h_S12x240 : 0 < S12x240.numel
  shapeCasts_S12x12_S12x12 : S12x12.ShapeCasts S12x12
  reducesTo_S12x12_S_d0_1 : S12x12.ReducesTo [0, 1] S_
  h_S_ : 0 < S_.numel
  bcast_S_S12x12 : S_.BroadcastsInDim S12x12 (![] : Fin 0 → Fin S12x12.rank)
  shapeCasts_S240x240_S12x20x12x20 : S240x240.ShapeCasts S12x20x12x20
  bcast_S_S12x20x12x20 : S_.BroadcastsInDim S12x20x12x20 (![] : Fin 0 → Fin S12x20x12x20.rank)
  reducesTo_S12x20x12x20_S12x12_d1_3 : S12x20x12x20.ReducesTo [1, 3] S12x12
  dot_S12x240_S240x240_S12x240_1_0_0_1_n_n_wf : DotDims.WF S12x240 S240x240 S12x240 [1] [0] [0] [1] [] []
  dot_S12x240_S240x12_S12x12_1_0_0_1_n_n_wf : DotDims.WF S12x240 S240x12 S12x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x240x240.size a ≤ S512x240x240.size a
  hwx0_0 : ∀ i : grid0.Coords, EltTy.bits .f32 = 32 ∨ (Rect.block (s := S512x240x240) S32x240x240.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S240x12.size a ≤ S240x12.size a
  hwx0_1 : ∀ i : grid0.Coords, EltTy.bits .f32 = 32 ∨ (Rect.block (s := S240x12) S240x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x240.size a ≤ S12x240.size a
  hwx0_2 : ∀ i : grid0.Coords, EltTy.bits .f32 = 32 ∨ (Rect.block (s := S12x240) S12x240.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x12.size a ≤ S12x12.size a
  hwx0_3 : ∀ i : grid0.Coords, EltTy.bits .f32 = 32 ∨ (Rect.block (s := S12x12) S12x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x12.size a ≤ S12x12.size a
  hwx0_4 : ∀ i : grid0.Coords, EltTy.bits .f32 = 32 ∨ (Rect.block (s := S12x12) S12x12.size (cc0_transform_4 i) (hinb0_4 i)).WholeWords (EltTy.packing .f32)

variable [Facts₀]

def dot_S12x240_S240x240_S12x240_1_0_0_1_n_n : DotDims S12x240 S240x240 S12x240 where
  lhsContracting := [1]
  rhsContracting := [0]
  lhsNonContracting := [0]
  rhsNonContracting := [1]
  lhsBatch := []
  rhsBatch := []
  wf := dot_S12x240_S240x240_S12x240_1_0_0_1_n_n_wf
def dot_S12x240_S240x12_S12x12_1_0_0_1_n_n : DotDims S12x240 S240x12 S12x12 where
  lhsContracting := [1]
  rhsContracting := [0]
  lhsNonContracting := [0]
  rhsNonContracting := [1]
  lhsBatch := []
  rhsBatch := []
  wf := dot_S12x240_S240x12_S12x12_1_0_0_1_n_n_wf

abbrev win0_0 : Pipeline.Window sig grid0 :=
  Pipeline.Window.ofSpec (Memref.whole main_arg0) S32x240x240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S240x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S12x240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S12x12.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S12x12.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x240x240 : Shape := ⟨3, ![512, 240, 240]⟩
abbrev S240x240 : Shape := ⟨2, ![240, 240]⟩
abbrev S_ : Shape := ⟨0, ![]⟩
abbrev S512x12x20x12x20 : Shape := ⟨5, ![512, 12, 20, 12, 20]⟩
abbrev S12x12 : Shape := ⟨2, ![12, 12]⟩
abbrev S12x20x12x20 : Shape := ⟨4, ![12, 20, 12, 20]⟩

abbrev nBuf : Space → Nat
  | .hbm => 32
  | .vmem => 0
  | .smem => 0
  | _ => 0

abbrev bufTy : (tb : Table) → Fin (tcTables nBuf tb) → BufTy
  | .hbm, ⟨0, _⟩ => ⟨S512x240x240, .f32⟩
  | .hbm, ⟨1, _⟩ => ⟨S240x240, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S512x12x20x12x20, .f32⟩
  | .hbm, ⟨7, _⟩ => ⟨S512x12x20x12x20, .f32⟩
  | .hbm, ⟨8, _⟩ => ⟨S512x12x20x12x20, .f32⟩
  | .hbm, ⟨9, _⟩ => ⟨S512x12x20x12x20, .f32⟩
  | .hbm, ⟨10, _⟩ => ⟨S_, .f32⟩
  | .hbm, ⟨11, _⟩ => ⟨S12x12, .f32⟩
  | .hbm, ⟨12, _⟩ => ⟨S_, .f32⟩
  | .hbm, ⟨13, _⟩ => ⟨S12x12, .f32⟩
  | .hbm, ⟨14, _⟩ => ⟨S12x12, .f32⟩
  | .hbm, ⟨15, _⟩ => ⟨S12x20x12x20, .f32⟩
  | .hbm, ⟨16, _⟩ => ⟨S12x20x12x20, .f32⟩
  | .hbm, ⟨17, _⟩ => ⟨S12x20x12x20, .f32⟩
  | .hbm, ⟨18, _⟩ => ⟨S12x20x12x20, .f32⟩
  | .hbm, ⟨19, _⟩ => ⟨S_, .f32⟩
  | .hbm, ⟨20, _⟩ => ⟨S12x12, .f32⟩
  | .hbm, ⟨21, _⟩ => ⟨S_, .f32⟩
  | .hbm, ⟨22, _⟩ => ⟨S12x12, .f32⟩
  | .hbm, ⟨23, _⟩ => ⟨S12x12, .f32⟩
  | .hbm, ⟨24, _⟩ => ⟨S12x12, .f32⟩
  | .hbm, ⟨25, _⟩ => ⟨S12x12, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S512x240x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S512x240x240_S_d0_1_2 : S512x240x240.ReducesTo [0, 1, 2] S_
  h_S_ : 0 < S_.numel
  shapeCasts_S512x240x240_S512x12x20x12x20 : S512x240x240.ShapeCasts S512x12x20x12x20
  bcast_S_S512x12x20x12x20 : S_.BroadcastsInDim S512x12x20x12x20 (![] : Fin 0 → Fin S512x12x20x12x20.rank)
  reducesTo_S512x12x20x12x20_S12x12_d0_2_4 : S512x12x20x12x20.ReducesTo [0, 2, 4] S12x12
  bcast_S_S12x12 : S_.BroadcastsInDim S12x12 (![] : Fin 0 → Fin S12x12.rank)
  shapeCasts_S240x240_S12x20x12x20 : S240x240.ShapeCasts S12x20x12x20
  bcast_S_S12x20x12x20 : S_.BroadcastsInDim S12x20x12x20 (![] : Fin 0 → Fin S12x20x12x20.rank)
  reducesTo_S12x20x12x20_S12x12_d1_3 : S12x20x12x20.ReducesTo [1, 3] S12x12
  reducesTo_S12x12_S_d0_1 : S12x12.ReducesTo [0, 1] S_

variable [Facts₀]

class Facts : Prop extends Facts₀ where

variable [Facts]
-- ==== Proof.Spec.lean ====
/-
  The mathematics of the patch statistics, over the extended reals and literal shapes; no program is imported.

  For an array x of shape (512, 240, 240) the PATCH SUM at (g, h), g h < 12, is the sum of x over all 512 images and
  the 20 × 20 spatial patch whose rows are 20 g + p and whose columns are 20 h + q (p q < 20): 204800 terms.
-/
import Idealize.ShloMosaic.PureOps.Ideal
import Idealize.ShloMosaic.Lib.ValueIdx

noncomputable section

open scoped BigOperators

namespace PatchStats

open Idealize.ShloMosaic Idealize.ShloMosaic.ValueIdx

/-- The images' shape. -/
abbrev SX : Shape := ⟨3, ![512, 240, 240]⟩

/-- Row (or column) 20 g + p of the 240: position p of patch g. -/
def row (g : Fin 12) (p : Fin 20) : Fin 240 := ⟨20 * g.val + p.val, by have := g.isLt; have := p.isLt; omega⟩

/-- Image 32 t + b of the 512: image b of chunk t. -/
def img (t : Fin 16) (b : Fin 32) : Fin 512 := ⟨32 * t.val + b.val, by have := t.isLt; have := b.isLt; omega⟩

/-- The patch sum of f at patch (g, h). -/
def psum (f : SX.Idx → EReal) (g h : Fin 12) : EReal :=
  ∑ b : Fin 512, ∑ p : Fin 20, ∑ q : Fin 20, f (ix3 b (row g p) (row h q))

/-- A real sum, coerced, is the sum of the coercions. -/
theorem coe_sum {ι : Type*} (K : Finset ι) (f : ι → ℝ) : ((∑ k ∈ K, f k : ℝ) : EReal) = ∑ k ∈ K, (f k : EReal) := by
  induction K using Finset.cons_induction with
  | empty => simp
  | cons a s ha ih => rw [Finset.sum_cons, Finset.sum_cons, EReal.coe_add, ih]

/-- Re-indexing by blocks: if e a b is position b of block a (of n blocks of k), the double sum over blocks and
    positions is the sum over all N = n k places. -/
theorem blocks_sum {M : Type*} [AddCommMonoid M] {n k N : ℕ} (hN : n * k = N) (e : Fin n → Fin k → Fin N)
    (he : ∀ a b, (e a b).val = k * a.val + b.val) (f : Fin N → M) :
    ∑ a : Fin n, ∑ b : Fin k, f (e a b) = ∑ i : Fin N, f i := by
  rw [← Fintype.sum_prod_type']
  refine Fintype.sum_equiv (finProdFinEquiv.trans (finCongr hN)) _ _ fun ab => ?_
  congr 1
  apply Fin.ext
  rw [he]
  simp [finProdFinEquiv, add_comm]

/-- The 240 rows are 12 patches of 20. -/
theorem rows_sum {M : Type*} [AddCommMonoid M] (f : Fin 240 → M) :
    ∑ i : Fin 240, f i = ∑ g : Fin 12, ∑ p : Fin 20, f (row g p) :=
  (blocks_sum (by norm_num) row (fun _ _ => rfl) f).symm

/-- The patch of row 20 g + p is g. -/
theorem row_div (g : Fin 12) (p : Fin 20) : (row g p).val / 20 = g.val := by
  have := p.isLt
  show (20 * g.val + p.val) / 20 = g.val
  omega

/-- A 0/1 selector of patch g, summed against A over the 240 rows, keeps the 20 rows of patch g
    (selector on the left). No finiteness is needed: 0 · a = 0 and 1 · a = a on every extended real. -/
theorem sel_sum_left (g : Fin 12) (A : Fin 240 → EReal) :
    ∑ i : Fin 240, (if i.val / 20 = g.val then (1 : EReal) else 0) * A i = ∑ p : Fin 20, A (row g p) := by
  rw [rows_sum, Finset.sum_eq_single g]
  · refine Finset.sum_congr rfl fun p _ => ?_
    rw [row_div, if_pos rfl, one_mul]
  · intro g' _ hg
    refine Finset.sum_eq_zero fun p _ => ?_
    rw [row_div, if_neg (fun h => hg (Fin.ext h)), zero_mul]
  · intro hg
    exact absurd (Finset.mem_univ g) hg

/-- The same with the selector on the right. -/
theorem sel_sum_right (g : Fin 12) (A : Fin 240 → EReal) :
    ∑ i : Fin 240, A i * (if i.val / 20 = g.val then (1 : EReal) else 0) = ∑ p : Fin 20, A (row g p) := by
  rw [← sel_sum_left g A]
  exact Finset.sum_congr rfl fun i _ => mul_comm _ _

/-- Sixteen chunks of 32 images are the 512 images. -/
theorem chunk_sum (f : Fin 512 → EReal) : ∑ t : Fin 16, ∑ b : Fin 32, f (img t b) = ∑ b : Fin 512, f b :=
  blocks_sum (by norm_num) img (fun _ _ => rfl) f

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the whole array is the sum of the 144 patch sums. -/
theorem sum_all_eq_psum (f : SX.Idx → EReal) : ∑ j : SX.Idx, f j = ∑ g : Fin 12, ∑ h : Fin 12, psum f g h := by
  have h1 : ∑ j : SX.Idx, f j
      = ∑ b : Fin 512, ∑ g : Fin 12, ∑ p : Fin 20, ∑ h : Fin 12, ∑ q : Fin 20, f (ix3 b (row g p) (row h q)) := by
    rw [sum_idx3]
    refine Finset.sum_congr rfl fun b _ => ?_
    rw [rows_sum]
    refine Finset.sum_congr rfl fun g _ => Finset.sum_congr rfl fun p _ => ?_
    rw [rows_sum]
  rw [h1, Finset.sum_comm]
  refine Finset.sum_congr rfl fun g _ => ?_
  have h2 : ∀ b : Fin 512, ∑ p : Fin 20, ∑ h : Fin 12, ∑ q : Fin 20, f (ix3 b (row g p) (row h q))
      = ∑ h : Fin 12, ∑ p : Fin 20, ∑ q : Fin 20, f (ix3 b (row g p) (row h q)) := fun b => Finset.sum_comm
  rw [Finset.sum_congr rfl fun b _ => h2 b, Finset.sum_comm]
  rfl

/-- The patch sum of a real array. -/
def rsum (r : SX.Idx → ℝ) (g h : Fin 12) : ℝ :=
  ∑ b : Fin 512, ∑ p : Fin 20, ∑ q : Fin 20, r (ix3 b (row g p) (row h q))

/-- The patch sum of a coerced real array is the coerced real patch sum. -/
theorem psum_coe (r : SX.Idx → ℝ) (g h : Fin 12) :
    psum (fun j => (r j : EReal)) g h = ((rsum r g h : ℝ) : EReal) := by
  unfold psum rsum
  rw [coe_sum]
  refine Finset.sum_congr rfl fun b _ => ?_
  rw [coe_sum]
  refine Finset.sum_congr rfl fun p _ => ?_
  rw [coe_sum]

/-- Over the reals: the patch sum of (r − m)² is Σ r² − 2 m Σ r + 204800 m². -/
theorem rsum_sq (r : SX.Idx → ℝ) (g h : Fin 12) (m : ℝ) :
    rsum (fun j => (r j - m) * (r j - m)) g h
      = rsum (fun j => r j * r j) g h - 2 * m * rsum r g h + 204800 * (m * m) := by
  unfold rsum
  simp only [show ∀ a : ℝ, (a - m) * (a - m) = a * a - 2 * m * a + m * m from fun a => by ring]
  simp only [Finset.sum_add_distrib, Finset.sum_sub_distrib, ← Finset.mul_sum, Finset.sum_const, Finset.card_univ,
    Fintype.card_fin, nsmul_eq_mul]
  push_cast
  ring

/-- THE LAW. For a finite array, with m the global mean (zero + Σ x) / N, C = 204800 the number of terms of a patch
    sum: the patch mean of squares minus twice m times the patch mean plus m², is the patch mean of (x − m)².
    (Expanding the square needs every entry finite: on the extended reals distributivity fails at the infinities.) -/
theorem var_expand (x : SX.Idx → EReal) (hx : ∀ j, ∃ r : ℝ, x j = (r : EReal)) (g h : Fin 12)
    (zero C two N : EReal) (hz : zero = 0) (hC : C = ((204800 : ℝ) : EReal)) (h2 : two = ((2 : ℝ) : EReal))
    (hN : N = ((29491200 : ℝ) : EReal)) (m : EReal) (hm : m = Ideal.div (zero + ∑ j : SX.Idx, x j) N) :
    Ideal.div (psum (fun j => x j * x j) g h) C - (two * m) * Ideal.div (psum x g h) C + m * m
      = Ideal.div (zero + psum (fun j => (x j - m) * (x j - m)) g h) C := by
  choose xr hxr using hx
  have hxf : x = fun j => (xr j : EReal) := funext hxr
  subst hz hC h2 hN
  subst hxf
  beta_reduce at hm ⊢
  have hm' : m = ((((∑ j, xr j) * (1 / 29491200) : ℝ)) : EReal) := by
    rw [hm, zero_add, ← coe_sum, Ideal.div_coe (by norm_num), ← EReal.coe_mul]
  generalize (∑ j, xr j) * (1 / 29491200) = mr at hm'
  subst hm'
  have e1 : (fun j => (xr j : EReal) * (xr j : EReal)) = fun j => ((xr j * xr j : ℝ) : EReal) :=
    funext fun j => (EReal.coe_mul _ _).symm
  have e2 : (fun j => ((xr j : EReal) - (mr : EReal)) * ((xr j : EReal) - (mr : EReal)))
      = fun j => (((xr j - mr) * (xr j - mr) : ℝ) : EReal) :=
    funext fun j => by rw [← EReal.coe_sub, ← EReal.coe_mul]
  have hc : (204800 : ℝ) ≠ 0 := by norm_num
  rw [e1, e2, psum_coe, psum_coe, psum_coe, zero_add, Ideal.div_coe hc, Ideal.div_coe hc, Ideal.div_coe hc, rsum_sq]
  simp only [← EReal.coe_mul, ← EReal.coe_sub, ← EReal.coe_add]
  congr 1
  ring

end PatchStats

end
-- ==== Proof.Consts.lean ====
/-
  The float literals the two programs spell, as the extended reals their patterns denote: the selector's one, the
  factor two of the cross term, the patch count 204800 = 512 · 20 · 20 and the element count 29491200 = 512 · 240 · 240.
-/
import Idealize.ShloMosaic.PureOps.Ideal
import Idealize.ShloMosaic.PureOps.Ideal.Laws

noncomputable section

open scoped BigOperators

namespace PatchStats.Consts

open Idealize.ShloMosaic

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_204800 : Ideal.ofBits .f32 0x48480000#32 = ((204800 : ℝ) : EReal) := by
  simp [Ideal.ofBits, Ideal.ieee, -EReal.coe_mul]; norm_num

theorem ofBits_29491200 : Ideal.ofBits .f32 0x4BE10000#32 = ((29491200 : ℝ) : EReal) := by
  simp [Ideal.ofBits, Ideal.ieee, -EReal.coe_mul]; norm_num

end PatchStats.Consts

end
-- ==== Proof.Sel.lean ====
/-
  The two selector arrays as the kernel region finds them: entry (i, g) of the 240 × 12 one is 1 when row i lies in
  patch g (i / 20 = g) and 0 otherwise; the 12 × 240 one is its transpose.
-/
import proofs.«158025_j64811056496910_1_alg».proof.Proof.Gen.KernelIdeal.Frame
import proofs.«158025_j64811056496910_1_alg».proof.Proof.Consts
import Idealize.ShloMosaic.Lib.ValueIdx
import Idealize.ShloMosaic.Lib.StableHlo.Run

noncomputable section

open scoped BigOperators

namespace Cert.KernelIdeal.Sel

open Idealize.ShloMosaic Idealize.ShloMosaic.TcCoe Idealize.SL.Sem Idealize.ShloMosaic.ValueIdx
open Cert.KernelIdeal Cert.KernelIdeal.Gen

/-! ## The two literal tables, entry by entry

Entry k = 12 i + g of the first table (row-major, 240 rows of 12) is the pattern of 1.0 when i / 20 = g and of 0.0
otherwise; entry k = 240 g + i of the second (12 rows of 240) likewise. Both are finite statements over the 2880
entries, decided by evaluation. -/

theorem lit0_eq : ∀ k : Fin 2880, lit0 k = if k.val / 12 / 20 = k.val % 12 then 0x3F800000#32 else 0x00000000#32 := by
  decide +kernel

theorem lit1_eq : ∀ k : Fin 2880, lit1 k = if k.val % 240 / 20 = k.val / 240 then 0x3F800000#32 else 0x00000000#32 := by
  decide +kernel

/-! ## The buffers are the tables

Of the two constants written before the region, each buffer holds its own: the first is written once and the second
constant writes another buffer; the second is written last. -/

section
variable {F : FTy → Type} [FloatOps F]
variable (m : (ℓ : Loc nD τ sig) → Buf (Elt F) ℓ)

theorem V_cst (c : Dev nD) :
    V m c main_cst = fun i => FloatOps.ofBits .f32 (lit0 (S240x12.rowMajor i)) := by
  show StableHlo.after hostOps0 (fun b => m (c, b)) (Proc.devRef .tc main_cst) = _
  after_results
  rfl

theorem V_cst0 (c : Dev nD) :
    V m c main_cst_0 = fun i => FloatOps.ofBits .f32 (lit1 (S12x240.rowMajor i)) := by
  show StableHlo.after hostOps0 (fun b => m (c, b)) (Proc.devRef .tc main_cst_0) = _
  after_results
  rfl
end

variable (m : (ℓ : Loc nD τ sig) → Buf (Elt Ideal) ℓ)

/-- The 240 × 12 selector at the region's entry. -/
theorem V_sel (c : Dev nD) :
    (V m c main_cst : S240x12.Idx → EReal) = fun i => if (i 0).val / 20 = (i 1).val then (1 : EReal) else 0 := by
  rw [V_cst]
  funext i
  obtain ⟨a, b, rfl⟩ : ∃ (a : Fin 240) (b : Fin 12), i = ix2 a b := ⟨i 0, i 1, eq_ix2 i⟩
  have ha : a.val < 240 := a.isLt
  have hb : b.val < 12 := b.isLt
  -- entry (a, b) sits at row-major position 12 a + b, whose quotient by 12 is a and remainder b
  have hk : (S240x12.rowMajor (ix2 a b)).val = a.val * 12 + b.val := Shape.rowMajor_val_two _
  show Ideal.ofBits .f32 (lit0 (S240x12.rowMajor (ix2 a b))) = if a.val / 20 = b.val then (1 : EReal) else 0
  have h1 : (a.val * 12 + b.val) / 12 / 20 = a.val / 20 := by omega
  have h2 : (a.val * 12 + b.val) % 12 = b.val := by omega
  have hl := lit0_eq (S240x12.rowMajor (ix2 a b))
  rw [hk, h1, h2] at hl
  refine (congrArg (Ideal.ofBits .f32) hl).trans ?_
  by_cases h : a.val / 20 = b.val
  · rw [if_pos h, if_pos h]; exact PatchStats.Consts.ofBits_one
  · rw [if_neg h, if_neg h]; exact Ideal.ofBits_zero_f32

/-- The 12 × 240 selector at the region's entry. -/
theorem V_selT (c : Dev nD) :
    (V m c main_cst_0 : S12x240.Idx → EReal) = fun i => if (i 1).val / 20 = (i 0).val then (1 : EReal) else 0 := by
  rw [V_cst0]
  funext i
  obtain ⟨a, b, rfl⟩ : ∃ (a : Fin 12) (b : Fin 240), i = ix2 a b := ⟨i 0, i 1, eq_ix2 i⟩
  have ha : a.val < 12 := a.isLt
  have hb : b.val < 240 := b.isLt
  -- entry (a, b) sits at row-major position 240 a + b, whose quotient by 240 is a and remainder b
  have hk : (S12x240.rowMajor (ix2 a b)).val = a.val * 240 + b.val := Shape.rowMajor_val_two _
  show Ideal.ofBits .f32 (lit1 (S12x240.rowMajor (ix2 a b))) = if b.val / 20 = a.val then (1 : EReal) else 0
  have h1 : (a.val * 240 + b.val) % 240 / 20 = b.val / 20 := by omega
  have h2 : (a.val * 240 + b.val) / 240 = a.val := by omega
  have hl := lit1_eq (S12x240.rowMajor (ix2 a b))
  rw [hk, h1, h2] at hl
  refine (congrArg (Ideal.ofBits .f32) hl).trans ?_
  by_cases h : b.val / 20 = a.val
  · rw [if_pos h, if_pos h]; exact PatchStats.Consts.ofBits_one
  · rw [if_neg h, if_neg h]; exact Ideal.ofBits_zero_f32

end Cert.KernelIdeal.Sel

end
-- ==== Proof.Point.lean ====
/-
  What one grid point adds: the body's two payloads read at an index, at the ideal instance. With the two selectors,
  the pooled product selT · (Σ_b x_b) · sel at (g, h) is the sum of the chunk's 32 images over patch (g, h).
-/
import proofs.«158025_j64811056496910_1_alg».proof.Proof.Gen.KernelIdeal.Skeleton
import proofs.«158025_j64811056496910_1_alg».proof.Proof.Spec
import proofs.«158025_j64811056496910_1_alg».proof.Proof.Consts
import Idealize.ShloMosaic.Lib.ValueIdx
import Idealize.ShloMosaic.Lib.Pipeline.Value
import Idealize.ShloMosaic.PureOps.Ideal.Laws

noncomputable section

open scoped BigOperators

namespace Cert.KernelIdeal.Point

open Idealize.ShloMosaic Idealize.ShloMosaic.ValueIdx PatchStats
open Cert.KernelIdeal Cert.KernelIdeal.Gen

/-! The two products' operand indices, coordinate by coordinate. -/

theorem lhsA_0 (j : S12x240.Idx) (k : dot_S12x240_S240x240_S12x240_1_0_0_1_n_n.contr.Idx) :
    (dot_S12x240_S240x240_S12x240_1_0_0_1_n_n.lhsIdx j k 0 : ℕ) = j 0 := by
  simp [DotDims.lhsIdx, dot_S12x240_S240x240_S12x240_1_0_0_1_n_n]; rfl
theorem lhsA_1 (j : S12x240.Idx) (k : dot_S12x240_S240x240_S12x240_1_0_0_1_n_n.contr.Idx) :
    (dot_S12x240_S240x240_S12x240_1_0_0_1_n_n.lhsIdx j k 1 : ℕ) = k ⟨0, by decide⟩ := by
  simp [DotDims.lhsIdx, dot_S12x240_S240x240_S12x240_1_0_0_1_n_n]; rfl
theorem rhsA_0 (j : S12x240.Idx) (k : dot_S12x240_S240x240_S12x240_1_0_0_1_n_n.contr.Idx) :
    (dot_S12x240_S240x240_S12x240_1_0_0_1_n_n.rhsIdx j k 0 : ℕ) = k ⟨0, by decide⟩ := by
  simp [DotDims.rhsIdx, dot_S12x240_S240x240_S12x240_1_0_0_1_n_n]; rfl
theorem rhsA_1 (j : S12x240.Idx) (k : dot_S12x240_S240x240_S12x240_1_0_0_1_n_n.contr.Idx) :
    (dot_S12x240_S240x240_S12x240_1_0_0_1_n_n.rhsIdx j k 1 : ℕ) = j 1 := by
  simp [DotDims.rhsIdx, dot_S12x240_S240x240_S12x240_1_0_0_1_n_n]; rfl

theorem lhsB_0 (j : S12x12.Idx) (k : dot_S12x240_S240x12_S12x12_1_0_0_1_n_n.contr.Idx) :
    (dot_S12x240_S240x12_S12x12_1_0_0_1_n_n.lhsIdx j k 0 : ℕ) = j 0 := by
  simp [DotDims.lhsIdx, dot_S12x240_S240x12_S12x12_1_0_0_1_n_n]; rfl
theorem lhsB_1 (j : S12x12.Idx) (k : dot_S12x240_S240x12_S12x12_1_0_0_1_n_n.contr.Idx) :
    (dot_S12x240_S240x12_S12x12_1_0_0_1_n_n.lhsIdx j k 1 : ℕ) = k ⟨0, by decide⟩ := by
  simp [DotDims.lhsIdx, dot_S12x240_S240x12_S12x12_1_0_0_1_n_n]; rfl
theorem rhsB_0 (j : S12x12.Idx) (k : dot_S12x240_S240x12_S12x12_1_0_0_1_n_n.contr.Idx) :
    (dot_S12x240_S240x12_S12x12_1_0_0_1_n_n.rhsIdx j k 0 : ℕ) = k ⟨0, by decide⟩ := by
  simp [DotDims.rhsIdx, dot_S12x240_S240x12_S12x12_1_0_0_1_n_n]; rfl
theorem rhsB_1 (j : S12x12.Idx) (k : dot_S12x240_S240x12_S12x12_1_0_0_1_n_n.contr.Idx) :
    (dot_S12x240_S240x12_S12x12_1_0_0_1_n_n.rhsIdx j k 1 : ℕ) = j 1 := by
  simp [DotDims.rhsIdx, dot_S12x240_S240x12_S12x12_1_0_0_1_n_n]; rfl

/-- The first product read at (g, j): Σ_i L(g, i) · A(i, j). -/
theorem mmA_apply (L : FVec Ideal S12x240 .f32) (A : FVec Ideal S240x240 .f32) (g : Fin 12) (j : Fin 240) :
    matmul (F := Ideal) dot_S12x240_S240x240_S12x240_1_0_0_1_n_n (some .fp32) L A (constant S12x240 .f32 0x00000000#32) (ix2 g j)
      = ∑ i : Fin 240, L (ix2 g i) * A (ix2 i j) := by
  refine (Ideal.matmul_constant_zero_apply _ _ L A (ix2 g j)).trans ?_
  rw [← Equiv.sum_comp (contrEquiv1 dot_S12x240_S240x240_S12x240_1_0_0_1_n_n 240 rfl rfl).symm]
  refine Finset.sum_congr rfl fun i _ => ?_
  congr 2
  · funext a; refine Fin.ext ?_
    match a with
    | ⟨0, _⟩ => exact lhsA_0 _ _
    | ⟨1, _⟩ => exact (lhsA_1 _ _).trans (contrEquiv1_symm_val _ 240 rfl rfl i)
  · funext a; refine Fin.ext ?_
    match a with
    | ⟨0, _⟩ => exact (rhsA_0 _ _).trans (contrEquiv1_symm_val _ 240 rfl rfl i)
    | ⟨1, _⟩ => exact rhsA_1 _ _

/-- The second product read at (g, h): Σ_j B(g, j) · R(j, h). -/
theorem mmB_apply (B : FVec Ideal S12x240 .f32) (R : FVec Ideal S240x12 .f32) (g h : Fin 12) :
    matmul (F := Ideal) dot_S12x240_S240x12_S12x12_1_0_0_1_n_n (some .fp32) B R (constant S12x12 .f32 0x00000000#32) (ix2 g h)
      = ∑ j : Fin 240, B (ix2 g j) * R (ix2 j h) := by
  refine (Ideal.matmul_constant_zero_apply _ _ B R (ix2 g h)).trans ?_
  rw [← Equiv.sum_comp (contrEquiv1 dot_S12x240_S240x12_S12x12_1_0_0_1_n_n 240 rfl rfl).symm]
  refine Finset.sum_congr rfl fun i _ => ?_
  congr 2
  · funext a; refine Fin.ext ?_
    match a with
    | ⟨0, _⟩ => exact lhsB_0 _ _
    | ⟨1, _⟩ => exact (lhsB_1 _ _).trans (contrEquiv1_symm_val _ 240 rfl rfl i)
  · funext a; refine Fin.ext ?_
    match a with
    | ⟨0, _⟩ => exact (rhsB_0 _ _).trans (contrEquiv1_symm_val _ 240 rfl rfl i)
    | ⟨1, _⟩ => exact rhsB_1 _ _

/-- The pooled product at (g, h), with the two 0/1 selectors: the sum of A over the rows of patch g and the
    columns of patch h. -/
theorem pooled_apply (A : FVec Ideal S240x240 .f32) (sel : FVec Ideal S240x12 .f32) (selT : FVec Ideal S12x240 .f32)
    (hsel : sel = fun i => if (i 0).val / 20 = (i 1).val then (1 : EReal) else 0)
    (hselT : selT = fun i => if (i 1).val / 20 = (i 0).val then (1 : EReal) else 0) (g h : Fin 12) :
    matmul (F := Ideal) dot_S12x240_S240x12_S12x12_1_0_0_1_n_n (some .fp32)
        (matmul (F := Ideal) dot_S12x240_S240x240_S12x240_1_0_0_1_n_n (some .fp32) selT A (constant S12x240 .f32 0x00000000#32))
        sel (constant S12x12 .f32 0x00000000#32) (ix2 g h)
      = ∑ p : Fin 20, ∑ q : Fin 20, A (ix2 (row g p) (row h q)) := by
  refine (mmB_apply _ sel g h).trans ?_
  have h1 : ∀ j : Fin 240,
      matmul (F := Ideal) dot_S12x240_S240x240_S12x240_1_0_0_1_n_n (some .fp32) selT A (constant S12x240 .f32 0x00000000#32) (ix2 g j)
          * sel (ix2 j h)
        = (∑ p : Fin 20, A (ix2 (row g p) j)) * (if j.val / 20 = h.val then (1 : EReal) else 0) := by
    intro j
    rw [mmA_apply]
    subst hsel hselT
    exact congrArg (· * _) (sel_sum_left g (fun i => A (ix2 i j)))
  refine (Finset.sum_congr rfl fun j _ => h1 j).trans ?_
  refine (sel_sum_right h (fun j => ∑ p : Fin 20, A (ix2 (row g p) j))).trans ?_
  exact Finset.sum_comm

/-- The sum over the 32 images of a chunk, read at (i, j). -/
theorem lane_apply (x : FVec Ideal S32x240x240 .f32) (hφ : FKind.Formats .f32)
    (hacc : (0x00000000#32 : BitVec 32) = FKind.add.neutral .f32 hφ) (i j : Fin 240) :
    multiReduction (F := Ideal) .add [0] S240x240 x 0x00000000#32 reduces_S32x240x240_S240x240 hφ hacc (ix2 i j)
      = ∑ b : Fin 32, x (ix3 b i j) := by
  refine (Ideal.multiReduction_add_single x 0x00000000#32 reduces_S32x240x240_S240x240 hφ hacc (ix2 i j)).trans ?_
  refine Finset.sum_congr rfl fun b _ => congrArg x ?_
  funext a; refine Fin.ext ?_
  match a with
  | ⟨0, _⟩ => rfl
  | ⟨1, _⟩ => rfl
  | ⟨2, _⟩ => rfl

/-- Three nested finite sums, the innermost index brought outermost. -/
theorem sum_rotate (f : Fin 20 → Fin 20 → Fin 32 → EReal) :
    ∑ p : Fin 20, ∑ q : Fin 20, ∑ b : Fin 32, f p q b = ∑ b : Fin 32, ∑ p : Fin 20, ∑ q : Fin 20, f p q b := by
  calc ∑ p : Fin 20, ∑ q : Fin 20, ∑ b : Fin 32, f p q b
      = ∑ p : Fin 20, ∑ b : Fin 32, ∑ q : Fin 20, f p q b := Finset.sum_congr rfl fun p _ => Finset.sum_comm
    _ = ∑ b : Fin 32, ∑ p : Fin 20, ∑ q : Fin 20, f p q b := Finset.sum_comm

/-- The sum payload at (g, h): the accumulator there plus the chunk's sum over the patch. -/
theorem pay3_apply (x : Vec Ideal S32x240x240 .f32) (sel : Vec Ideal S240x12 .f32) (selT : Vec Ideal S12x240 .f32)
    (acc : Vec Ideal S12x12 .f32)
    (hsel : sel = fun i => if (i 0).val / 20 = (i 1).val then (1 : EReal) else 0)
    (hselT : selT = fun i => if (i 1).val / 20 = (i 0).val then (1 : EReal) else 0) (g h : Fin 12) :
    k0_pay3 (F := Ideal) x sel selT acc (ix2 g h)
      = acc (ix2 g h) + ∑ b : Fin 32, ∑ p : Fin 20, ∑ q : Fin 20, x (ix3 b (row g p) (row h q)) := by
  unfold k0_pay3
  refine (addf_apply _ _ _).trans ?_
  rw [shapeCast_self]
  refine congrArg (acc (ix2 g h) + ·) ?_
  refine (pooled_apply _ sel selT hsel hselT g h).trans ?_
  refine (Finset.sum_congr rfl fun p _ => Finset.sum_congr rfl fun q _ =>
    lane_apply x _ _ (row g p) (row h q)).trans ?_
  exact sum_rotate (fun p q b => x (ix3 b (row g p) (row h q)))

/-- The sum-of-squares payload at (g, h). -/
theorem pay4_apply (x : Vec Ideal S32x240x240 .f32) (sel : Vec Ideal S240x12 .f32) (selT : Vec Ideal S12x240 .f32)
    (acc : Vec Ideal S12x12 .f32)
    (hsel : sel = fun i => if (i 0).val / 20 = (i 1).val then (1 : EReal) else 0)
    (hselT : selT = fun i => if (i 1).val / 20 = (i 0).val then (1 : EReal) else 0) (g h : Fin 12) :
    k0_pay4 (F := Ideal) x sel selT acc (ix2 g h)
      = acc (ix2 g h) + ∑ b : Fin 32, ∑ p : Fin 20, ∑ q : Fin 20,
          x (ix3 b (row g p) (row h q)) * x (ix3 b (row g p) (row h q)) := by
  unfold k0_pay4
  refine (addf_apply _ _ _).trans ?_
  rw [shapeCast_self]
  refine congrArg (acc (ix2 g h) + ·) ?_
  refine (pooled_apply _ sel selT hsel hselT g h).trans ?_
  refine (Finset.sum_congr rfl fun p _ => Finset.sum_congr rfl fun q _ =>
    (lane_apply (mulf (F := Ideal) x x) _ _ (row g p) (row h q)).trans
      (Finset.sum_congr rfl fun b _ => mulf_apply x x (ix3 b (row g p) (row h q)))).trans ?_
  exact sum_rotate (fun p q b => x (ix3 b (row g p) (row h q)) * x (ix3 b (row g p) (row h q)))

end Cert.KernelIdeal.Point

end
-- ==== Proof.Acc.lean ====
/-
  The kernel's accumulation. After grid point n the two output buffers hold, at patch (g, h), the sum over the first
  n + 1 chunks of 32 images of x (resp. x · x) over that patch: point 0 stores the zero block and adds its chunk's
  pooled sum, every later point adds its own to what the point before left. After the last of the 16 points this is
  the patch sum over all 512 images.
-/
import proofs.«158025_j64811056496910_1_alg».proof.Proof.Gen.KernelIdeal.Frame
import proofs.«158025_j64811056496910_1_alg».proof.Proof.Spec
import proofs.«158025_j64811056496910_1_alg».proof.Proof.Sel
import proofs.«158025_j64811056496910_1_alg».proof.Proof.Point
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen PatchStats

/-! ## What each case leaves, at any float instance -/

section AnyInstance

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point (no reset): the sum buffer holding `xo3` ends at the sum payload of the point's blocks over `xo3`. -/
theorem out_B_3 (c : Dev nD) (i : grid0.Coords) (a1 : Memref sig .tc .vmem S32x240x240 .f32) (h1 : a1.IsWhole)
    (a2 : Memref sig .tc .vmem S240x12 .f32) (h2 : a2.IsWhole) (a3 : Memref sig .tc .vmem S12x240 .f32) (h3 : a3.IsWhole)
    (a4 : Memref sig .tc .vmem S12x12 .f32) (h4 : a4.IsWhole) (a5 : Memref sig .tc .vmem S12x12 .f32) (h5 : a5.IsWhole)
    (hc : ¬cond0_0 i) (x0 : Vec F S32x240x240 .f32) (x1 : Vec F S240x12 .f32) (x2 : Vec F S12x240 .f32)
    (xo3 xo4 : Vec F S12x12 .f32) :
    out0_B_3 c i a1 h1 a2 h2 a3 h3 a4 h4 a5 h5 hc x0 x1 x2 xo3 xo4 = k0_pay3 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S32x240x240) hz3, View.ld_unit_zero (S := S240x12) hz2, View.ld_unit_zero (S := S12x240) hz2,
    View.ld_unit_zero (S := S12x12) hz2]

/-- A later point: the sum-of-squares buffer holding `xo4` ends at the squares payload over `xo4`. -/
theorem out_B_4 (c : Dev nD) (i : grid0.Coords) (a1 : Memref sig .tc .vmem S32x240x240 .f32) (h1 : a1.IsWhole)
    (a2 : Memref sig .tc .vmem S240x12 .f32) (h2 : a2.IsWhole) (a3 : Memref sig .tc .vmem S12x240 .f32) (h3 : a3.IsWhole)
    (a4 : Memref sig .tc .vmem S12x12 .f32) (h4 : a4.IsWhole) (a5 : Memref sig .tc .vmem S12x12 .f32) (h5 : a5.IsWhole)
    (hc : ¬cond0_0 i) (x0 : Vec F S32x240x240 .f32) (x1 : Vec F S240x12 .f32) (x2 : Vec F S12x240 .f32)
    (xo3 xo4 : Vec F S12x12 .f32) :
    out0_B_4 c i a1 h1 a2 h2 a3 h3 a4 h4 a5 h5 hc x0 x1 x2 xo3 xo4 = k0_pay4 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S32x240x240) hz3, View.ld_unit_zero (S := S240x12) hz2, View.ld_unit_zero (S := S12x240) hz2,
    View.ld_unit_zero (S := S12x12) hz2]

/-- The first point: the zero block is stored, read back, and the sum payload over it is stored. -/
theorem out_A_3 (c : Dev nD) (i : grid0.Coords) (a1 : Memref sig .tc .vmem S32x240x240 .f32) (h1 : a1.IsWhole)
    (a2 : Memref sig .tc .vmem S240x12 .f32) (h2 : a2.IsWhole) (a3 : Memref sig .tc .vmem S12x240 .f32) (h3 : a3.IsWhole)
    (a4 : Memref sig .tc .vmem S12x12 .f32) (h4 : a4.IsWhole) (a5 : Memref sig .tc .vmem S12x12 .f32) (h5 : a5.IsWhole)
    (hc : cond0_0 i) (x0 : Vec F S32x240x240 .f32) (x1 : Vec F S240x12 .f32) (x2 : Vec F S12x240 .f32) :
    out0_A_3 c i a1 h1 a2 h2 a3 h3 a4 h4 a5 h5 hc x0 x1 x2 = k0_pay3 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S12x12) hz2, View.readCov_unit_zero (S := S12x12) _ hz2]
  simp only [View.readAt_eq_ld, h1.read_unread, h2.read_unread, h3.read_unread, h4.read_unread, h5.read_unread,
    View.ld_unit_zero (S := S32x240x240) hz3, View.ld_unit_zero (S := S240x12) hz2, View.ld_unit_zero (S := S12x240) hz2,
    View.ld_unit_zero (S := S12x12) hz2]

/-- The first point, the squares buffer. -/
theorem out_A_4 (c : Dev nD) (i : grid0.Coords) (a1 : Memref sig .tc .vmem S32x240x240 .f32) (h1 : a1.IsWhole)
    (a2 : Memref sig .tc .vmem S240x12 .f32) (h2 : a2.IsWhole) (a3 : Memref sig .tc .vmem S12x240 .f32) (h3 : a3.IsWhole)
    (a4 : Memref sig .tc .vmem S12x12 .f32) (h4 : a4.IsWhole) (a5 : Memref sig .tc .vmem S12x12 .f32) (h5 : a5.IsWhole)
    (hc : cond0_0 i) (x0 : Vec F S32x240x240 .f32) (x1 : Vec F S240x12 .f32) (x2 : Vec F S12x240 .f32) :
    out0_A_4 c i a1 h1 a2 h2 a3 h3 a4 h4 a5 h5 hc x0 x1 x2 = k0_pay4 x0 x1 x2 (k0_pay2 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S12x12) hz2, View.readCov_unit_zero (S := S12x12) _ hz2]
  simp only [View.readAt_eq_ld, h1.read_unread, h2.read_unread, h3.read_unread, h4.read_unread, h5.read_unread,
    View.ld_unit_zero (S := S32x240x240) hz3, View.ld_unit_zero (S := S240x12) hz2, View.ld_unit_zero (S := S12x240) hz2,
    View.ld_unit_zero (S := S12x12) hz2]

variable (m : (ℓ : Loc nD τ sig) → Buf (Elt F) ℓ)

/-- The three input blocks of point `t`, at their literal types: the chunk of images and the two selectors. -/
abbrev xblk (c : Dev nD) (t : Fin cfg0.N) : Vec F S32x240x240 .f32 := iblk m c 0 t
abbrev selblk (c : Dev nD) (t : Fin cfg0.N) : Vec F S240x12 .f32 := iblk m c 1 t
abbrev selTblk (c : Dev nD) (t : Fin cfg0.N) : Vec F S12x240 .f32 := iblk m c 2 t

/-- The running sum after point `n`: the sum payload of point `n`'s blocks over what point `n - 1` left, from the zero block. -/
def chainS (c : Dev nD) : (n : ℕ) → n < cfg0.N → Vec F S12x12 .f32
  | 0, h => k0_pay3 (xblk m c ⟨0, h⟩) (selblk m c ⟨0, h⟩) (selTblk m c ⟨0, h⟩) (k0_pay1 (F := F))
  | n + 1, h => k0_pay3 (xblk m c ⟨n + 1, h⟩) (selblk m c ⟨n + 1, h⟩) (selTblk m c ⟨n + 1, h⟩) (chainS c n (Nat.lt_of_succ_lt h))

/-- The running sum of squares after point `n`. -/
def chainQ (c : Dev nD) : (n : ℕ) → n < cfg0.N → Vec F S12x12 .f32
  | 0, h => k0_pay4 (xblk m c ⟨0, h⟩) (selblk m c ⟨0, h⟩) (selTblk m c ⟨0, h⟩) (k0_pay2 (F := F))
  | n + 1, h => k0_pay4 (xblk m c ⟨n + 1, h⟩) (selblk m c ⟨n + 1, h⟩) (selTblk m c ⟨n + 1, h⟩) (chainQ c n (Nat.lt_of_succ_lt h))

/-- What the two output buffers hold after point `n` is the pair of running sums: by induction on the point. -/
theorem outsAt_eq (c : Dev nD) : ∀ (n : ℕ) (h : n < cfg0.N), outsAt0 m c n h = (chainS m c n h, chainQ m c n h)
  | 0, h => by
    rw [outsAt0_A m c ⟨0, h⟩ rfl, out_A_3, out_A_4]
    rfl
  | n + 1, h => by
    have hN : cfg0.N = 16 := N_0
    have hB : ¬(⟨n + 1, h⟩ : Fin cfg0.N).val % 16 = 0 := by dsimp only; omega
    rw [outsAt0_B m c ⟨n + 1, h⟩ hB, out_B_3, out_B_4]
    show (k0_pay3 _ _ _ (outsAt0 m c n _).1, k0_pay4 _ _ _ (outsAt0 m c n _).2) = _
    rw [outsAt_eq c n]
    rfl

end AnyInstance

/-! ## The running sums at the ideal instance -/

section AtIdeal

variable (m : (ℓ : Loc nD τ sig) → Buf (Elt Ideal) ℓ)

/-- The images, as launched. -/
abbrev X (c : Dev nD) : SX.Idx → EReal := m ((c : Thread nD τ).loc main_arg0)

/-- Chunk `t`'s contribution at patch (g, h): its 32 images summed over the patch (nothing beyond the 16 chunks). -/
def chunk (f : SX.Idx → EReal) (t : ℕ) (g h : Fin 12) : EReal :=
  if ht : t < 16 then ∑ b : Fin 32, ∑ p : Fin 20, ∑ q : Fin 20, f (ix3 (img ⟨t, ht⟩ b) (row g p) (row h q)) else 0

/-- The images' window moves along the image axis only; the selectors' windows do not move. -/
theorem index_facts : ∀ t : Fin cfg0.N,
    (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0) :=
  (by decide +kernel : ∀ t : Fin grid0.N, _)

/-- Point `t`'s block of images at (b, i, j) is image 32 t + b of the array. -/
theorem xblk_apply (c : Dev nD) (t : Fin cfg0.N) (ht : t.val < 16) (b : Fin 32) (i j : Fin 240) :
    xblk m c t (ix3 b i j) = X m c (ix3 (img ⟨t.val, ht⟩ b) i j) := by
  have hi := (index_facts t).1
  unfold xblk iblk
  rw [View.read_apply]
  show V m c main_arg0 _ = m (c.tc.loc main_arg0) _
  rw [V_main_arg0]
  congr 1
  funext a
  apply Fin.ext
  match a with
  | ⟨0, _⟩ => show win0_0.index t 0 * 32 + 1 * b.val = 32 * t.val + b.val; rw [hi.1]; omega
  | ⟨1, _⟩ => show win0_0.index t 1 * 240 + 1 * i.val = i.val; rw [hi.2.1]; omega
  | ⟨2, _⟩ => show win0_0.index t 2 * 240 + 1 * j.val = j.val; rw [hi.2.2]; omega

/-- The 240 × 12 selector's block is the whole selector, at every point. -/
theorem selblk_eq (c : Dev nD) (t : Fin cfg0.N) :
    selblk m c t = fun i => if (i 0).val / 20 = (i 1).val then (1 : EReal) else 0 := by
  have hi := (index_facts t).2.1
  refine Eq.trans ?_ (Sel.V_sel m c)
  funext y
  unfold selblk iblk
  rw [View.read_apply]
  show V m c main_cst _ = V m c main_cst y
  congr 1
  funext a
  apply Fin.ext
  match a with
  | ⟨0, _⟩ => show win0_1.index t 0 * 240 + 1 * (y 0).val = (y 0).val; rw [hi.1]; omega
  | ⟨1, _⟩ => show win0_1.index t 1 * 12 + 1 * (y 1).val = (y 1).val; rw [hi.2]; omega

/-- The 12 × 240 selector's block likewise. -/
theorem selTblk_eq (c : Dev nD) (t : Fin cfg0.N) :
    selTblk m c t = fun i => if (i 1).val / 20 = (i 0).val then (1 : EReal) else 0 := by
  have hi := (index_facts t).2.2
  refine Eq.trans ?_ (Sel.V_selT m c)
  funext y
  unfold selTblk iblk
  rw [View.read_apply]
  show V m c main_cst_0 _ = V m c main_cst_0 y
  congr 1
  funext a
  apply Fin.ext
  match a with
  | ⟨0, _⟩ => show win0_2.index t 0 * 12 + 1 * (y 0).val = (y 0).val; rw [hi.1]; omega
  | ⟨1, _⟩ => show win0_2.index t 1 * 240 + 1 * (y 1).val = (y 1).val; rw [hi.2]; omega

/-- The running sum at (g, h) after point n: the first n + 1 chunks' contributions. -/
theorem chainS_apply (c : Dev nD) (g h : Fin 12) : ∀ (n : ℕ) (hn : n < cfg0.N),
    chainS m c n hn (ix2 g h) = ∑ t ∈ Finset.range (n + 1), chunk (X m c) t g h
  | 0, hn => by
    have h16 : (0 : ℕ) < 16 := by decide
    show k0_pay3 (xblk m c ⟨0, hn⟩) (selblk m c ⟨0, hn⟩) (selTblk m c ⟨0, hn⟩) (k0_pay1 (F := Ideal)) (ix2 g h) = _
    rw [Point.pay3_apply _ _ _ _ (selblk_eq m c ⟨0, hn⟩) (selTblk_eq m c ⟨0, hn⟩) g h, Finset.sum_range_one]
    unfold chunk
    rw [dif_pos h16]
    show Ideal.ofBits .f32 0x00000000#32 + _ = _
    rw [Ideal.ofBits_zero_f32, zero_add]
    exact Finset.sum_congr rfl fun b _ => Finset.sum_congr rfl fun p _ => Finset.sum_congr rfl fun q _ =>
      xblk_apply m c ⟨0, hn⟩ h16 b (row g p) (row h q)
  | n + 1, hn => by
    have h16 : n + 1 < 16 := lt_of_lt_of_eq hn (show cfg0.N = 16 from N_0)
    show k0_pay3 (xblk m c ⟨n + 1, hn⟩) (selblk m c ⟨n + 1, hn⟩) (selTblk m c ⟨n + 1, hn⟩)
      (chainS m c n (Nat.lt_of_succ_lt hn)) (ix2 g h) = _
    rw [Point.pay3_apply _ _ _ _ (selblk_eq m c ⟨n + 1, hn⟩) (selTblk_eq m c ⟨n + 1, hn⟩) g h,
      chainS_apply c g h n (Nat.lt_of_succ_lt hn), Finset.sum_range_succ _ (n + 1)]
    congr 1
    unfold chunk
    rw [dif_pos h16]
    exact Finset.sum_congr rfl fun b _ => Finset.sum_congr rfl fun p _ => Finset.sum_congr rfl fun q _ =>
      xblk_apply m c ⟨n + 1, hn⟩ h16 b (row g p) (row h q)

/-- The running sum of squares at (g, h) after point n. -/
theorem chainQ_apply (c : Dev nD) (g h : Fin 12) : ∀ (n : ℕ) (hn : n < cfg0.N),
    chainQ m c n hn (ix2 g h) = ∑ t ∈ Finset.range (n + 1), chunk (fun j => X m c j * X m c j) t g h
  | 0, hn => by
    have h16 : (0 : ℕ) < 16 := by decide
    show k0_pay4 (xblk m c ⟨0, hn⟩) (selblk m c ⟨0, hn⟩) (selTblk m c ⟨0, hn⟩) (k0_pay2 (F := Ideal)) (ix2 g h) = _
    rw [Point.pay4_apply _ _ _ _ (selblk_eq m c ⟨0, hn⟩) (selTblk_eq m c ⟨0, hn⟩) g h, Finset.sum_range_one]
    unfold chunk
    rw [dif_pos h16]
    show Ideal.ofBits .f32 0x00000000#32 + _ = _
    rw [Ideal.ofBits_zero_f32, zero_add]
    exact Finset.sum_congr rfl fun b _ => Finset.sum_congr rfl fun p _ => Finset.sum_congr rfl fun q _ => by
      rw [xblk_apply m c ⟨0, hn⟩ h16 b (row g p) (row h q)]
  | n + 1, hn => by
    have h16 : n + 1 < 16 := lt_of_lt_of_eq hn (show cfg0.N = 16 from N_0)
    show k0_pay4 (xblk m c ⟨n + 1, hn⟩) (selblk m c ⟨n + 1, hn⟩) (selTblk m c ⟨n + 1, hn⟩)
      (chainQ m c n (Nat.lt_of_succ_lt hn)) (ix2 g h) = _
    rw [Point.pay4_apply _ _ _ _ (selblk_eq m c ⟨n + 1, hn⟩) (selTblk_eq m c ⟨n + 1, hn⟩) g h,
      chainQ_apply c g h n (Nat.lt_of_succ_lt hn), Finset.sum_range_succ _ (n + 1)]
    congr 1
    unfold chunk
    rw [dif_pos h16]
    exact Finset.sum_congr rfl fun b _ => Finset.sum_congr rfl fun p _ => Finset.sum_congr rfl fun q _ => by
      rw [xblk_apply m c ⟨n + 1, hn⟩ h16 b (row g p) (row h q)]

/-- All sixteen chunks' contributions are the patch sum over the 512 images. -/
theorem chunks_eq_psum (f : SX.Idx → EReal) (g h : Fin 12) :
    ∑ t ∈ Finset.range 16, chunk f t g h = psum f g h := by
  rw [Finset.sum_range fun t => chunk f t g h]
  unfold psum
  rw [← chunk_sum fun b' => ∑ p : Fin 20, ∑ q : Fin 20, f (ix3 b' (row g p) (row h q))]
  exact Finset.sum_congr rfl fun t _ => by
    unfold chunk
    rw [dif_pos t.isLt]

end AtIdeal

end Cert.KernelIdeal.Acc

end
-- ==== Proof.KRun.lean ====
/-
  The kernel program's run, read: after the region the two result arrays hold the running sums after the last of the
  16 points (the only write-back; its block is the whole 12 × 12 array), and the host operations that follow compute
  the loss from them.
-/
import proofs.«158025_j64811056496910_1_alg».proof.Proof.Acc
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Acc PatchStats

section AnyInstance

variable {F : FTy → Type} [FloatOps F]
variable (m : (ℓ : Loc nD τ sig) → Buf (Elt F) ℓ) (ρ : Dev nD → PrngReg)

theorem lt15 : 15 < cfg0.N := by rw [show cfg0.N = 16 from N_0]; decide

/-- The sums after the last point, as contents of the first result array. -/
abbrev resS (c : Dev nD) : Buf (Elt F) ((c : Thread nD τ).loc main_v0_0) := chainS m c 15 lt15
/-- The sums of squares after the last point, as contents of the second result array. -/
abbrev resQ (c : Dev nD) : Buf (Elt F) ((c : Thread nD τ).loc main_v0_1) := chainQ m c 15 lt15

/-- A point that writes a result back is the last one. -/
theorem last_of_flush3 (t : Fin cfg0.N) (hf : (cfg0.win 3).flush t = true) : t = t0_15 := by
  have hN : cfg0.N = 16 := N_0
  have := (flush0_3 t).mp hf
  have := t.isLt
  exact Fin.ext (show t.val = 15 by omega)
theorem last_of_flush4 (t : Fin cfg0.N) (hf : (cfg0.win 4).flush t = true) : t = t0_15 := by
  have hN : cfg0.N = 16 := N_0
  have := (flush0_4 t).mp hf
  have := t.isLt
  exact Fin.ext (show t.val = 15 by omega)

/-- What the last point writes back into the first result array: the whole array's worth of the running sums. -/
theorem flushed3_eq (c : Dev nD) (t : Fin cfg0.N) (hf : (cfg0.win 3).flush t = true) :
    (dats m 0 c).flushed 3 t = ((cfg0.win 3).blk t).view.read (Elt F) (resS m c) := by
  obtain rfl := last_of_flush3 t hf
  show (cfg0.win 3).cut (grid0.coords t0_15) ((dats m 0 c).after 3 t0_15) = _
  rw [after0_3, outsAt_eq]
  have hz' : (fun a => win0_3.index t0_15 a * main_v0_0.ty.shape.size a) = fun _ => 0 :=
    funext fun a => by fin_cases a <;> decide
  exact (Memref.read_access_unit_zero (Elt F) main_v0_0 hz' (fun a => by rw [congrFun hz' a]; simp) (resS m c)).symm

theorem flushed4_eq (c : Dev nD) (t : Fin cfg0.N) (hf : (cfg0.win 4).flush t = true) :
    (dats m 0 c).flushed 4 t = ((cfg0.win 4).blk t).view.read (Elt F) (resQ m c) := by
  obtain rfl := last_of_flush4 t hf
  show (cfg0.win 4).cut (grid0.coords t0_15) ((dats m 0 c).after 4 t0_15) = _
  rw [after0_4, outsAt_eq]
  have hz' : (fun a => win0_4.index t0_15 a * main_v0_1.ty.shape.size a) = fun _ => 0 :=
    funext fun a => by fin_cases a <;> decide
  exact (Memref.read_access_unit_zero (Elt F) main_v0_1 hz' (fun a => by rw [congrFun hz' a]; simp) (resQ m c)).symm

/-- The last point's block of a result window is all of the 12 × 12 array. -/
theorem block3_all (i : S12x12.Idx) : i ∈ ((View.whole main_v0_0).slice (win0_3.rect t0_15)).set := by
  rw [View.set_slice_whole, Rect.mem_set_unit]
  intro a
  have h0 : (i 0 : Nat) < 12 := (i 0).isLt
  have h1 : (i 1 : Nat) < 12 := (i 1).isLt
  match a with
  | ⟨0, _⟩ =>
    show win0_3.index t0_15 0 * win0_3.size 0 ≤ (i 0 : Nat) ∧ (i 0 : Nat) < win0_3.index t0_15 0 * win0_3.size 0 + win0_3.xsize (grid0.coords t0_15) 0
    rw [show win0_3.index t0_15 0 * win0_3.size 0 = 0 from by decide +kernel, show win0_3.xsize (grid0.coords t0_15) 0 = 12 from by decide +kernel]; omega
  | ⟨1, _⟩ =>
    show win0_3.index t0_15 1 * win0_3.size 1 ≤ (i 1 : Nat) ∧ (i 1 : Nat) < win0_3.index t0_15 1 * win0_3.size 1 + win0_3.xsize (grid0.coords t0_15) 1
    rw [show win0_3.index t0_15 1 * win0_3.size 1 = 0 from by decide +kernel, show win0_3.xsize (grid0.coords t0_15) 1 = 12 from by decide +kernel]; omega

theorem block4_all (i : S12x12.Idx) : i ∈ ((View.whole main_v0_1).slice (win0_4.rect t0_15)).set := by
  rw [View.set_slice_whole, Rect.mem_set_unit]
  intro a
  have h0 : (i 0 : Nat) < 12 := (i 0).isLt
  have h1 : (i 1 : Nat) < 12 := (i 1).isLt
  match a with
  | ⟨0, _⟩ =>
    show win0_4.index t0_15 0 * win0_4.size 0 ≤ (i 0 : Nat) ∧ (i 0 : Nat) < win0_4.index t0_15 0 * win0_4.size 0 + win0_4.xsize (grid0.coords t0_15) 0
    rw [show win0_4.index t0_15 0 * win0_4.size 0 = 0 from by decide +kernel, show win0_4.xsize (grid0.coords t0_15) 0 = 12 from by decide +kernel]; omega
  | ⟨1, _⟩ =>
    show win0_4.index t0_15 1 * win0_4.size 1 ≤ (i 1 : Nat) ∧ (i 1 : Nat) < win0_4.index t0_15 1 * win0_4.size 1 + win0_4.xsize (grid0.coords t0_15) 1
    rw [show win0_4.index t0_15 1 * win0_4.size 1 = 0 from by decide +kernel, show win0_4.xsize (grid0.coords t0_15) 1 = 12 from by decide +kernel]; omega

/-- So the first result array ends at the running sums after the last point, -/
theorem final3 (c : Dev nD) : (dats m 0 c).arrAt 3 cfg0.N = resS m c :=
  (dats m 0 c).arrAt_eq_of_cover 3 (resS m c) (flushed3_eq m c) fun i =>
    ⟨t0_15, (flush0_3 t0_15).mpr rfl, block3_all i⟩

/-- and the second at the running sums of squares. -/
theorem final4 (c : Dev nD) : (dats m 0 c).arrAt 4 cfg0.N = resQ m c :=
  (dats m 0 c).arrAt_eq_of_cover 4 (resQ m c) (flushed4_eq m c) fun i =>
    ⟨t0_15, (flush0_4 t0_15).mpr rfl, block4_all i⟩

end AnyInstance

/-! ## The host operations after the region -/

section Tail

variable {F : FTy → Type} [FloatOps F]

/-- The global mean from the patch sums: their total over 29491200. -/
def meanOf (S : FVec F S12x12 .f32) : FVec F S_ .f32 :=
  Host.divf (Host.reduceAdd S (constant S_ .f32 0x00000000#32) reducesTo_S12x12_S_d0_1 h_S_) (constant S_ .f32 0x4BE10000#32)

/-- The kernel's patch variances from the patch sums S and sums of squares Q:
    Q / 204800 − (2 · mean) · (S / 204800) + mean · mean. -/
def predVarOf (S Q : FVec F S12x12 .f32) : FVec F S12x12 .f32 :=
  addf (subf (Host.divf Q (broadcastInDim S12x12 ![] bcast_S_S12x12 (constant S_ .f32 0x48480000#32)))
      (mulf (broadcastInDim S12x12 ![] bcast_S_S12x12 (mulf (constant S_ .f32 0x40000000#32) (meanOf S)))
        (Host.divf S (broadcastInDim S12x12 ![] bcast_S_S12x12 (constant S_ .f32 0x48480000#32)))))
    (broadcastInDim S12x12 ![] bcast_S_S12x12 (mulf (meanOf S) (meanOf S)))

/-- The second input's patch "variances" about a given mean M: the patch means of (y − M)², 400 entries a patch. -/
def gtVarOf (M : FVec F S_ .f32) (y : FVec F S240x240 .f32) : FVec F S12x12 .f32 :=
  Host.divf
    (Host.reduceAdd
      (mulf (subf (shapeCast S12x20x12x20 y shapeCasts_S240x240_S12x20x12x20) (broadcastInDim S12x20x12x20 ![] bcast_S_S12x20x12x20 M))
        (subf (shapeCast S12x20x12x20 y shapeCasts_S240x240_S12x20x12x20) (broadcastInDim S12x20x12x20 ![] bcast_S_S12x20x12x20 M)))
      (constant S_ .f32 0x00000000#32) reducesTo_S12x20x12x20_S12x12_d1_3 h_S_)
    (broadcastInDim S12x12 ![] bcast_S_S12x12 (constant S_ .f32 0x43C80000#32))

/-- The loss from a mean M, patch variances PV and the second input: half the sum of squared differences, over 12. -/
def lossOf (M : FVec F S_ .f32) (PV : FVec F S12x12 .f32) (y : FVec F S240x240 .f32) : FVec F S_ .f32 :=
  Host.divf
    (mulf
      (Host.reduceAdd (mulf (subf PV (gtVarOf M y)) (subf PV (gtVarOf M y))) (constant S_ .f32 0x00000000#32)
        reducesTo_S12x12_S_d0_1 h_S_)
      (constant S_ .f32 0x3F000000#32))
    (constant S_ .f32 0x41400000#32)

theorem flatten_one {α : Type*} (l : List α) : [l].flatten = l := by simp

variable (m : (ℓ : Loc nD τ sig) → Buf (Elt F) ℓ) (ρ : Dev nD → PrngReg)

/-- At the region's exit the first result array holds the running sums after the last point, -/
theorem exit_S (c : Dev nD) :
    Pipeline.withArrays (cfgs 0).spec c (V0 m c) (fun w => (dats m 0 c).arrAt w (cfgs 0).N) (Proc.devRef .tc main_v0_0)
      = resS m c :=
  (Pipeline.withArrays_arr spec0 launch0.win.arr_inj c _ _ 3).trans (final3 m c)

/-- the second the running sums of squares, -/
theorem exit_Q (c : Dev nD) :
    Pipeline.withArrays (cfgs 0).spec c (V0 m c) (fun w => (dats m 0 c).arrAt w (cfgs 0).N) (Proc.devRef .tc main_v0_1)
      = resQ m c :=
  (Pipeline.withArrays_arr spec0 launch0.win.arr_inj c _ _ 4).trans (final4 m c)

/-- and the second input, which no window stages and no earlier operation writes, is as launched. -/
theorem exit_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

set_option maxHeartbeats 2000000 in
/-- The result buffer after the host operations that follow the region. -/
theorem tail_eq (c : Dev nD) :
    Pipeline.afterTail₀ cfgs (dats m) 0 (V0 m) [hostOps1] c main_v25
      = lossOf (meanOf (resS m c)) (predVarOf (resS m c) (resQ m c)) (m ((c : Thread nD τ).loc main_arg1)) := by
  unfold Pipeline.afterTail₀
  rw [flatten_one]
  after_results
  rw [exit_S, exit_Q, exit_arg1]
  rfl

/-- THE KERNEL PROGRAM'S RUN: every weakly fair execution terminates with the result at the loss computed from the
    running sums after the last point, and both arguments as launched. -/
theorem run : θ_run defs (onTc (τ := τ) (main (F := F))) ⟨m, fun _ => 0, ρ⟩ fun r => ∀ c : Dev nD,
      r.2.mem ((c.tc : Thread nD τ).loc main_v25)
        = lossOf (meanOf (resS m c)) (predVarOf (resS m c) (resQ m c)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v25 (Pipeline.mem_restRefs_of main_v25 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Tail

end Cert.KernelIdeal.KRun

end
-- ==== Proof.RefVal.lean ====
/-
  The reference's two sums over several axes, read at an index: the patch reduction of the 512 × 12 × 20 × 12 × 20
  view at (g, h) is the patch sum over (b, p, q) of the array at (b, 20 g + p, 20 h + q).
-/
import proofs.«158025_j64811056496910_1_alg».proof.Proof.Gen.ReferenceIdeal.Read
import proofs.«158025_j64811056496910_1_alg».proof.Proof.Spec
import Idealize.ShloMosaic.Lib.ValueIdx

noncomputable section

open scoped BigOperators

namespace Cert.ReferenceIdeal.RefVal

open Idealize.ShloMosaic Idealize.ShloMosaic.ValueIdx PatchStats
open Cert.ReferenceIdeal Cert.ReferenceIdeal.Gen Cert.ReferenceIdeal.Read

/-- The global mean, as the reference computes it: (0 + Σ x) / 29491200. -/
theorem v1_apply (x : S512x240x240.Idx → EReal) (i : S_.Idx) :
    val_main_v1 (F := Ideal) x i
      = Ideal.div (Ideal.ofBits .f32 0x00000000#32 + ∑ j : S512x240x240.Idx, x j) (Ideal.ofBits .f32 0x4BE10000#32) := by
  rw [val_main_v1_apply, val_main_v0_apply, val_main_cst_apply, val_main_cst_0_apply, Ideal.hostDivf_def,
    Ideal.ofBits_def, Ideal.ofBits_def]

/-- Dropping axes 0, 2, 4 of (b, g, p, h, q) leaves (g, h). -/
theorem drop_ix5 (b : Fin 512) (g : Fin 12) (p : Fin 20) (h : Fin 12) (q : Fin 20) :
    reducesTo_S512x12x20x12x20_S12x12_d0_2_4.drop (ix5 b g p h q) = ix2 g h := by
  funext a
  match a with
  | ⟨0, _⟩ => rfl
  | ⟨1, _⟩ => rfl

/-- The indices of the view lying over (g, h): (b, p, q) ↦ (b, g, p, h, q), one for each image and patch position. -/
def patchEmb (g h : Fin 12) : Fin 512 × Fin 20 × Fin 20 ↪ S512x12x20x12x20.Idx :=
  ⟨fun t => ix5 t.1 g t.2.1 h t.2.2, fun t t' e => by
    have e0 : t.1 = t'.1 := by have := congrFun e (0 : Fin 5); exact this
    have e2 : t.2.1 = t'.2.1 := by have := congrFun e (2 : Fin 5); exact this
    have e4 : t.2.2 = t'.2.2 := by have := congrFun e (4 : Fin 5); exact this
    exact Prod.ext e0 (Prod.ext e2 e4)⟩

/-- The indices the patch reduction sums at (g, h) are exactly those. -/
theorem filter_drop (g h : Fin 12) :
    Finset.univ.filter (fun i : S512x12x20x12x20.Idx => reducesTo_S512x12x20x12x20_S12x12_d0_2_4.drop i = ix2 g h)
      = Finset.univ.map (patchEmb g h) := by
  ext i
  simp only [Finset.mem_filter, Finset.mem_univ, true_and, Finset.mem_map]
  obtain ⟨b, g', p, h', q, rfl⟩ : ∃ (b : Fin 512) (g' : Fin 12) (p : Fin 20) (h' : Fin 12) (q : Fin 20),
      i = ix5 b g' p h' q := ⟨i 0, i 1, i 2, i 3, i 4, eq_ix5 i⟩
  rw [drop_ix5]
  constructor
  · intro e
    have eg : g' = g := by have := congrFun e (0 : Fin 2); exact this
    have eh : h' = h := by have := congrFun e (1 : Fin 2); exact this
    subst eg eh
    exact ⟨(b, p, q), rfl⟩
  · rintro ⟨⟨b', p', q'⟩, e⟩
    have eg : g = g' := by have := congrFun e (1 : Fin 5); exact this
    have eh : h = h' := by have := congrFun e (3 : Fin 5); exact this
    subst eg eh
    rfl

/-- The view's index (b, g, p, h, q) is the array's (b, 20 g + p, 20 h + q): the same row-major position. -/
theorem idx_v2_ix5 (b : Fin 512) (g : Fin 12) (p : Fin 20) (h : Fin 12) (q : Fin 20) :
    idx_main_v2 (ix5 b g p h q) = ix3 b (row g p) (row h q) := by
  have hb := b.isLt; have hg := g.isLt; have hp := p.isLt; have hh := h.isLt; have hq := q.isLt
  funext a
  match a with
  | ⟨0, _⟩ =>
    apply Fin.ext
    show ((((b.val * 12 + g.val) * 20 + p.val) * 12 + h.val) * 20 + q.val) / 57600 = b.val
    omega
  | ⟨1, _⟩ =>
    apply Fin.ext
    show ((((b.val * 12 + g.val) * 20 + p.val) * 12 + h.val) * 20 + q.val) / 240 % 240 = 20 * g.val + p.val
    omega
  | ⟨2, _⟩ =>
    apply Fin.ext
    show ((((b.val * 12 + g.val) * 20 + p.val) * 12 + h.val) * 20 + q.val) % 240 = 20 * h.val + q.val
    omega

/-- One squared deviation of the view, read at (b, g, p, h, q). -/
theorem v5_ix5 (x : S512x240x240.Idx → EReal) (b : Fin 512) (g : Fin 12) (p : Fin 20) (h : Fin 12) (q : Fin 20) :
    val_main_v5 (F := Ideal) x (ix5 b g p h q)
      = (x (ix3 b (row g p) (row h q)) - val_main_v1 (F := Ideal) x ix0)
        * (x (ix3 b (row g p) (row h q)) - val_main_v1 (F := Ideal) x ix0) := by
  rw [val_main_v5_apply, val_main_v4_apply, val_main_v2_apply, val_main_v3_apply, idx_v2_ix5,
    eq_ix0 (idx_main_v3 (ix5 b g p h q)), Ideal.mulf_def, Ideal.subf_def]

/-- The patch reduction of the squared deviations at (g, h). -/
theorem v6_apply (x : S512x240x240.Idx → EReal) (g h : Fin 12) :
    val_main_v6 (F := Ideal) x (ix2 g h)
      = Ideal.ofBits .f32 0x00000000#32
        + psum (fun j => (x j - val_main_v1 (F := Ideal) x ix0) * (x j - val_main_v1 (F := Ideal) x ix0)) g h := by
  unfold val_main_v6
  simp only [Host.reduceAdd, Ideal.hostReduceAdd_def]
  unfold Ideal.hostReduceAdd
  rw [filter_drop, Finset.sum_map, val_main_cst_1_apply, Ideal.ofBits_def, Fintype.sum_prod_type]
  unfold psum
  congr 1
  refine Finset.sum_congr rfl fun b _ => ?_
  rw [Fintype.sum_prod_type]
  refine Finset.sum_congr rfl fun p _ => Finset.sum_congr rfl fun q _ => ?_
  exact v5_ix5 x b g p h q

end Cert.ReferenceIdeal.RefVal

end
-- ==== Proof.Bridge.lean ====
/-
  The two sides meet. At the ideal instance the kernel's running sums after the last point are the patch sums of x
  and of x · x; the mean the kernel's host operations form from them is the reference's global mean (a sum re-indexed);
  and under finiteness the kernel's  Q / C − (2 m) (S / C) + m m  is the reference's patch mean of (x − m)²
  (the square expanded). Everything after that is the same operations on both sides.
-/
import proofs.«158025_j64811056496910_1_alg».proof.Proof.KRun
import proofs.«158025_j64811056496910_1_alg».proof.Proof.RefVal
import proofs.«158025_j64811056496910_1_alg».proof.Proof.Consts
import proofs.«158025_j64811056496910_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.Bridge

open PatchStats
open Cert.KernelIdeal.KRun (meanOf predVarOf gtVarOf lossOf resS resQ)
open Cert.ReferenceIdeal.Read Cert.ReferenceIdeal.RefVal

/-- The patch sums of x as a 12 × 12 array, and those of x · x. -/
abbrev Sof (x : SX.Idx → EReal) : FVec Ideal Cert.KernelIdeal.S12x12 .f32 := fun gh => psum x (gh 0) (gh 1)
abbrev Qof (x : SX.Idx → EReal) : FVec Ideal Cert.KernelIdeal.S12x12 .f32 := fun gh => psum (fun j => x j * x j) (gh 0) (gh 1)

section Kernel

variable (m : (ℓ : Loc Cert.KernelIdeal.nD Cert.KernelIdeal.τ Cert.KernelIdeal.sig) → Buf (Elt Ideal) ℓ)

/-- After the last point the first result array holds the patch sums of the images, -/
theorem resS_eq (c : Dev Cert.KernelIdeal.nD) : resS m c = Sof (Cert.KernelIdeal.Acc.X m c) := by
  funext gh
  obtain ⟨g, h, rfl⟩ : ∃ (g h : Fin 12), gh = ix2 g h := ⟨gh 0, gh 1, eq_ix2 gh⟩
  exact (Cert.KernelIdeal.Acc.chainS_apply m c g h 15 Cert.KernelIdeal.KRun.lt15).trans
    (Cert.KernelIdeal.Acc.chunks_eq_psum _ g h)

/-- and the second those of their squares. -/
theorem resQ_eq (c : Dev Cert.KernelIdeal.nD) : resQ m c = Qof (Cert.KernelIdeal.Acc.X m c) := by
  funext gh
  obtain ⟨g, h, rfl⟩ : ∃ (g h : Fin 12), gh = ix2 g h := ⟨gh 0, gh 1, eq_ix2 gh⟩
  exact (Cert.KernelIdeal.Acc.chainQ_apply m c g h 15 Cert.KernelIdeal.KRun.lt15).trans
    (Cert.KernelIdeal.Acc.chunks_eq_psum _ g h)

end Kernel

/-- The mean the kernel's host operations form from the patch sums is the reference's global mean. -/
theorem mean_eq (x : SX.Idx → EReal) : meanOf (F := Ideal) (Sof x) = val_main_v1 (F := Ideal) x := by
  funext i
  rw [v1_apply]
  unfold meanOf
  simp only [Host.divf, Host.reduceAdd, Ideal.hostDivf_def, Ideal.hostReduceAdd_def]
  rw [Ideal.hostReduceAdd_total _ (fun b => b.elim0), sum_idx2, sum_all_eq_psum x]
  rfl

/-- A scalar broadcast to the 12 × 12 array reads the scalar everywhere. -/
theorem bcast12_apply (y : FVec Ideal Cert.KernelIdeal.S_ .f32) (i : Cert.KernelIdeal.S12x12.Idx) :
    broadcastInDim Cert.KernelIdeal.S12x12 ![] Cert.KernelIdeal.Gen.bcast_S_S12x12 y i = y ix0 :=
  broadcastInDim_apply _ Cert.KernelIdeal.Gen.bcast_S_S12x12 y i ix0 (fun a => a.elim0)

/-- Under finiteness the kernel's patch variances are the reference's: the square expanded, patch by patch. -/
theorem predVar_eq (x : SX.Idx → EReal) (hx : ∀ j, ∃ r : ℝ, x j = (r : EReal)) :
    predVarOf (F := Ideal) (Sof x) (Qof x) = val_main_v8 (F := Ideal) x := by
  funext gh
  obtain ⟨g, h, rfl⟩ : ∃ (g h : Fin 12), gh = ix2 g h := ⟨gh 0, gh 1, eq_ix2 gh⟩
  rw [val_main_v8_apply, v6_apply, val_main_v7_apply, val_main_cst_2_apply, Ideal.hostDivf_def, Ideal.ofBits_def]
  unfold predVarOf
  rw [mean_eq]
  simp only [addf_apply, subf_apply, mulf_apply, Host.divf, Ideal.hostDivf_def]
  rw [bcast12_apply, bcast12_apply, bcast12_apply]
  simp only [mulf_apply, constant_apply]
  exact var_expand x hx g h _ _ _ _ Ideal.ofBits_zero_f32 Consts.ofBits_204800 Consts.ofBits_two Consts.ofBits_29491200
    (val_main_v1 (F := Ideal) x ix0) (v1_apply x ix0)

/-- The reference's result is the same loss tail, of its own mean and patch variances. -/
theorem ref_eq (x : SX.Idx → EReal) (y : FVec Ideal Cert.KernelIdeal.S240x240 .f32) :
    val_main_v20 (F := Ideal) x y = lossOf (F := Ideal) (val_main_v1 (F := Ideal) x) (val_main_v8 (F := Ideal) x) y := rfl

/-- THE BRIDGE: for finite images the kernel's result term is the reference's. -/
theorem result_eq (m : (ℓ : Loc Cert.KernelIdeal.nD Cert.KernelIdeal.τ Cert.KernelIdeal.sig) → Buf (Elt Ideal) ℓ)
    (c : Dev Cert.KernelIdeal.nD) (hx : ∀ j, ∃ r : ℝ, Cert.KernelIdeal.Acc.X m c j = (r : EReal))
    (y : FVec Ideal Cert.KernelIdeal.S240x240 .f32) :
    lossOf (F := Ideal) (meanOf (resS m c)) (predVarOf (resS m c) (resQ m c)) y
      = val_main_v20 (F := Ideal) (Cert.KernelIdeal.Acc.X m c) y := by
  rw [resS_eq, resQ_eq, mean_eq, predVar_eq _ hx, ref_eq]

end Cert.Bridge

end
-- ==== Proof.Finite.lean ====
/-
  From the precondition — every entry of both inputs is below +∞ in absolute value — every entry of the images is a
  real number.
-/
import proofs.«158025_j64811056496910_1_alg».proof.Defs
import proofs.«158025_j64811056496910_1_alg».proof.Proof.Gen.Pre_finite_inputs
import Idealize.ShloMosaic.Lib.ReduceAll
import Idealize.ShloMosaic.Lib.ValueIdx

noncomputable section

open scoped BigOperators

namespace Cert.Finite

open Idealize.ShloMosaic Idealize.ShloMosaic.ValueIdx

/-- The pattern 0x7F800000 denotes +∞. -/
theorem ofBits_inf : Ideal.ofBits .f32 0x7F800000#32 = (⊤ : EReal) := by
  simp [Ideal.ofBits, Ideal.ieee]

/-- An extended real whose absolute value max a (-a) is strictly below +∞ is a real number:
    at ⊥ and at ⊤ the absolute value is ⊤, which is not below ⊤. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- If the printed precondition is all ones on (x, y), every entry of x is real. -/
theorem real_of_pre [Cert.Pre_finite_inputs.Facts] (x : FVec Ideal Cert.Pre_finite_inputs.S512x240x240 .f32)
    (y : FVec Ideal Cert.Pre_finite_inputs.S240x240 .f32)
    (h : Cert.Pre_finite_inputs.fn (F := Ideal) x y = fun _ => 1#1) : ∀ j, ∃ r : ℝ, x j = (r : EReal) := by
  intro j
  -- the shape of a scalar has exactly one index
  haveI : Subsingleton Cert.Pre_finite_inputs.S_.Idx := ⟨fun a b => funext fun d => d.elim0⟩
  have h0 := congrFun h ValueIdx.ix0
  dsimp only [Cert.Pre_finite_inputs.fn] at h0
  obtain ⟨h1, _⟩ := IntOp.andi_eq_one.1 h0
  have h2 := Host.reduce_andi_all _ _ _ _ _ h1 j
  have h3 : Ideal.cmp .olt (max (x j) (-(x j))) (Ideal.ofBits .f32 0x7F800000#32) = 1#1 := h2
  rw [ofBits_inf] at h3
  exact real_of_abs_lt_top _ h3

end Cert.Finite

end
-- ==== Proof.lean ====
/-
  The certificate of the patch-variance loss kernel against its jnp reference, over the extended reals.

  The kernel streams the 512 images in 16 chunks of 32; per chunk it sums the images and their squares over the image
  axis, pools each 240 × 240 slab to the 12 × 12 grid of 20 × 20 patches by two products with a 0/1 selector matrix,
  and accumulates the pooled sums S and the pooled sums of squares Q across the grid. The host operations after it form
  the global mean m = (Σ S) / 29491200 and the patch variances Q / 204800 − 2 m · S / 204800 + m², and compare them with
  the second input's patch means of (y − m)². The reference computes m as the mean of all entries and the patch variances
  as the patch means of (x − m)².

  At the ideal instance the running sums after the last grid point are the patch sums of x and of x² (the selector
  products keep exactly the patch's rows and columns; sixteen chunks of 32 are the 512 images); the two means are one
  sum re-indexed; and for finite inputs  Q / C − 2 m S / C + m²  is the patch mean of (x − m)², the square expanded over
  C = 204800 terms — the one step that needs the precondition, since distributivity fails at the infinities. The rest of
  the two programs is the same operations on the same values.

  The frames of the two kernel programs are the generated ones; the reference's frame is its generated run. The ideal
  pass rewrote nothing, so the preservation claim is trivial.
-/
import proofs.«158025_j64811056496910_1_alg».proof.Defs
import proofs.«158025_j64811056496910_1_alg».proof.Proof.Gen.Kernel
import proofs.«158025_j64811056496910_1_alg».proof.Proof.Gen.Kernel.Skeleton
import proofs.«158025_j64811056496910_1_alg».proof.Proof.Gen.Kernel.Launch
import proofs.«158025_j64811056496910_1_alg».proof.Proof.Gen.Kernel.Points
import proofs.«158025_j64811056496910_1_alg».proof.Proof.Gen.Kernel.Frame
import proofs.«158025_j64811056496910_1_alg».proof.Proof.Gen.KernelIdeal
import proofs.«158025_j64811056496910_1_alg».proof.Proof.Gen.KernelIdeal.Skeleton
import proofs.«158025_j64811056496910_1_alg».proof.Proof.Gen.KernelIdeal.Launch
import proofs.«158025_j64811056496910_1_alg».proof.Proof.Gen.KernelIdeal.Points
import proofs.«158025_j64811056496910_1_alg».proof.Proof.Gen.KernelIdeal.Frame
import proofs.«158025_j64811056496910_1_alg».proof.Proof.Gen.ReferenceIdeal
import proofs.«158025_j64811056496910_1_alg».proof.Proof.Gen.ReferenceIdeal.Run
import proofs.«158025_j64811056496910_1_alg».proof.Proof.Gen.ReferenceIdeal.Read
import proofs.«158025_j64811056496910_1_alg».proof.Proof.Gen.Pre_finite_inputs
import proofs.«158025_j64811056496910_1_alg».proof.Proof.KRun
import proofs.«158025_j64811056496910_1_alg».proof.Proof.Bridge
import proofs.«158025_j64811056496910_1_alg».proof.Proof.Finite
import Idealize.ShloMosaic.Adequacy
import Idealize.ShloMosaic.Init

noncomputable section

namespace Cert.Proof

open Idealize.ShloMosaic Idealize.ShloMosaic.TcCoe Idealize.SL.Sem
open Cert.KernelIdeal.KRun (meanOf predVarOf lossOf resS resQ)

/-- The word-level kernel program terminates, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two inputs, finite by the precondition, both idealized programs end with the same
    loss: the kernel's from the patch sums, the reference's from the deviations, equal by the expanded square. -/
theorem algebraic : Cert.algebraic_KernelIdeal_ReferenceIdeal := by
  intro m ρ m' ρ' hpre hagree
  refine ⟨fun c => lossOf (F := Ideal) (meanOf (resS m c)) (predVarOf (resS m c) (resQ m c))
      (m ((c.tc : Thread Cert.KernelIdeal.nD Cert.KernelIdeal.τ).loc Cert.KernelIdeal.main_arg1)),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq _ _).trans ?_
  rw [(hagree c).1, (hagree c).2]
  exact (Cert.Bridge.result_eq m c (Cert.Finite.real_of_pre _ _ (hpre c)) _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
